-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8192x8192 : Shape := ⟨2, ![8192, 8192]⟩
abbrev S8192x64 : Shape := ⟨2, ![8192, 64]⟩
abbrev S8192 : Shape := ⟨1, ![8192]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x8192 .f32) (main_arg1 : IVec S8192x8192 32) (main_arg2 : FVec F S8192x64 .f32) (main_arg3 : FVec F S8192 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x8192 : Shape := ⟨2, ![8, 8192]⟩
abbrev S8192x8192 : Shape := ⟨2, ![8192, 8192]⟩
abbrev S8192x64 : Shape := ⟨2, ![8192, 64]⟩
abbrev S8192 : Shape := ⟨1, ![8192]⟩
abbrev S_ : Shape := ⟨0, ![]⟩
abbrev S8 : Shape := ⟨1, ![8]⟩
abbrev S8x1 : Shape := ⟨2, ![8, 1]⟩
abbrev S1x8192 : Shape := ⟨2, ![1, 8192]⟩
abbrev S256x8192 : Shape := ⟨2, ![256, 8192]⟩
abbrev S256x64 : Shape := ⟨2, ![256, 64]⟩
abbrev S1x256 : Shape := ⟨2, ![1, 256]⟩
abbrev S8x256 : Shape := ⟨2, ![8, 256]⟩
abbrev S256x64x1 : Shape := ⟨3, ![256, 64, 1]⟩
abbrev S256x64x128 : Shape := ⟨3, ![256, 64, 128]⟩

abbrev nBuf : Space → Nat
  | .hbm => 29
  | .vmem => 9
  | .smem => 0
  | _ => 0

abbrev bufTy : (tb : Table) → Fin (tcTables nBuf tb) → BufTy
  | .hbm, ⟨0, _⟩ => ⟨S8x8192, .f32⟩
  | .hbm, ⟨1, _⟩ => ⟨S8192x8192, .i32⟩
  | .hbm, ⟨2, _⟩ => ⟨S8192x64, .f32⟩
  | .hbm, ⟨3, _⟩ => ⟨S8192, .f32⟩
  | .hbm, ⟨4, _⟩ => ⟨S8x8192, .f32⟩
  | .hbm, ⟨5, _⟩ => ⟨S_, .f32⟩
  | .hbm, ⟨6, _⟩ => ⟨S8, .f32⟩
  | .hbm, ⟨7, _⟩ => ⟨S8x1, .f32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192, .f32⟩
  | .hbm, ⟨26, _⟩ => ⟨S8x8192, .f32⟩
  | .hbm, ⟨27, _⟩ => ⟨S1x8192, .f32⟩
  | .hbm, ⟨28, _⟩ => ⟨S8x8192, .f32⟩
  | .local _ .vmem, ⟨0, _⟩ => ⟨S8x8192, .f32⟩
  | .local _ .vmem, ⟨1, _⟩ => ⟨S256x8192, .i32⟩
  | .local _ .vmem, ⟨2, _⟩ => ⟨S256x8192, .i32⟩
  | .local _ .vmem, ⟨3, _⟩ => ⟨S256x64, .f32⟩
  | .local _ .vmem, ⟨4, _⟩ => ⟨S256x64, .f32⟩
  | .local _ .vmem, ⟨5, _⟩ => ⟨S1x256, .f32⟩
  | .local _ .vmem, ⟨6, _⟩ => ⟨S1x256, .f32⟩
  | .local _ .vmem, ⟨7, _⟩ => ⟨S8x256, .f32⟩
  | .local _ .vmem, ⟨8, _⟩ => ⟨S8x256, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8x8192_S8_d1 : S8x8192.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x8192_0_1 : S8x1.BroadcastsInDim S8x8192 (![0, 1] : Fin 2 → Fin S8x8192.rank)
  bcast_S_S8x8192 : S_.BroadcastsInDim S8x8192 (![] : Fin 0 → Fin S8x8192.rank)
  shapeCasts_S8192_S1x8192 : S8192.ShapeCasts S1x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64x1_S256x64x1 : S256x64x1.ShapeCasts S256x64x1
  broadcasts_S256x64x1_S256x64x128 : S256x64x1.Broadcasts S256x64x128
  shapeCasts_S256x64x128_S256x8192 : S256x64x128.ShapeCasts S256x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  dot_S8x8192_S256x8192_S8x256_1_1_0_0_n_n_wf : DotDims.WF S8x8192 S256x8192 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .f32 = 32 ∨ (Rect.block (s := S8x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x8192.size a
  hwx0_4 : ∀ i : grid0.Coords, EltTy.bits .f32 = 32 ∨ (Rect.block (s := S8x8192) S8x256.size (cc0_transform_4 i) (hinb0_4 i)).WholeWords (EltTy.packing .f32)

variable [Facts₀]

def dot_S8x8192_S256x8192_S8x256_1_1_0_0_n_n : DotDims S8x8192 S256x8192 S8x256 where
  lhsContracting := [1]
  rhsContracting := [1]
  lhsNonContracting := [0]
  rhsNonContracting := [0]
  lhsBatch := []
  rhsBatch := []
  wf := dot_S8x8192_S256x8192_S8x256_1_1_0_0_n_n_wf

abbrev win0_0 : Pipeline.Window sig grid0 :=
  Pipeline.Window.ofSpec (Memref.whole main_v12) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192 : Shape := ⟨2, ![8, 8192]⟩
abbrev S8192x8192 : Shape := ⟨2, ![8192, 8192]⟩
abbrev S8192x64 : Shape := ⟨2, ![8192, 64]⟩
abbrev S8192 : Shape := ⟨1, ![8192]⟩
abbrev S_ : Shape := ⟨0, ![]⟩
abbrev S8 : Shape := ⟨1, ![8]⟩
abbrev S8x1 : Shape := ⟨2, ![8, 1]⟩
abbrev S8192x64x128 : Shape := ⟨3, ![8192, 64, 128]⟩
abbrev S8192x64x1 : Shape := ⟨3, ![8192, 64, 1]⟩
abbrev S1x8192 : Shape := ⟨2, ![1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8192x8192, .i32⟩
  | .hbm, ⟨2, _⟩ => ⟨S8192x64, .f32⟩
  | .hbm, ⟨3, _⟩ => ⟨S8192, .f32⟩
  | .hbm, ⟨4, _⟩ => ⟨S8x8192, .f32⟩
  | .hbm, ⟨5, _⟩ => ⟨S_, .f32⟩
  | .hbm, ⟨6, _⟩ => ⟨S8, .f32⟩
  | .hbm, ⟨7, _⟩ => ⟨S8x1, .f32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192, .f32⟩
  | .hbm, ⟨26, _⟩ => ⟨S8x8192, .f32⟩
  | .hbm, ⟨27, _⟩ => ⟨S8192x64x128, .i32⟩
  | .hbm, ⟨28, _⟩ => ⟨S8192x64x128, .f32⟩
  | .hbm, ⟨29, _⟩ => ⟨S8192x64x1, .f32⟩
  | .hbm, ⟨30, _⟩ => ⟨S8192x64x128, .f32⟩
  | .hbm, ⟨31, _⟩ => ⟨S8192x64x128, .f32⟩
  | .hbm, ⟨32, _⟩ => ⟨S8192x8192, .f32⟩
  | .hbm, ⟨33, _⟩ => ⟨S8x8192, .f32⟩
  | .hbm, ⟨34, _⟩ => ⟨S1x8192, .f32⟩
  | .hbm, ⟨35, _⟩ => ⟨S8x8192, .f32⟩
  | .hbm, ⟨36, _⟩ => ⟨S8x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S8x8192_S8_d1 : S8x8192.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x8192_0_1 : S8x1.BroadcastsInDim S8x8192 (![0, 1] : Fin 2 → Fin S8x8192.rank)
  bcast_S_S8x8192 : S_.BroadcastsInDim S8x8192 (![] : Fin 0 → Fin S8x8192.rank)
  shapeCasts_S8192x8192_S8192x64x128 : S8192x8192.ShapeCasts S8192x64x128
  bcast_S8192x64_S8192x64x1_0_1 : S8192x64.BroadcastsInDim S8192x64x1 (![0, 1] : Fin 2 → Fin S8192x64x1.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  dot_S8x8192_S8192x8192_S8x8192_1_1_0_0_n_n_wf : DotDims.WF S8x8192 S8192x8192 S8x8192 [1] [1] [0] [0] [] []

variable [Facts₀]

def dot_S8x8192_S8192x8192_S8x8192_1_1_0_0_n_n : DotDims S8x8192 S8192x8192 S8x8192 where
  lhsContracting := [1]
  rhsContracting := [1]
  lhsNonContracting := [0]
  rhsNonContracting := [0]
  lhsBatch := []
  rhsBatch := []
  wf := dot_S8x8192_S8192x8192_S8x8192_1_1_0_0_n_n_wf

class Facts : Prop extends Facts₀ where

variable [Facts]
-- ==== Proof.DequantGemm.lean ====
/-
  The value both programs compute, as ONE function of four arrays over the extended reals.

  A linear layer with group-quantized weights: the weight of output feature `n` at input feature `κ` is the integer code
  `codes[n, κ]`, read signed and exactly, times the scale of the group of 128 consecutive input features that `κ` lies in,
  `scales[n, κ / 128]`. The layer's value at row `r` and output feature `n` is the sum over all 8192 input features of the
  activation `act[r, κ]` times that weight, plus the bias of feature `n`.

  Nothing here mentions a program: the activations are an argument (both programs first quantize them the same way, and
  that common step is never opened), and no law of the extended reals beyond the definitions is used — the two programs
  multiply and add in this very order, so the comparison needs no finiteness.
-/
import Idealize.ShloMosaic.PureOps.Ideal
import Idealize.ShloMosaic.Lib.ValueIdx

noncomputable section

open scoped BigOperators

namespace Cert.DequantGemm

open Idealize.ShloMosaic Idealize.ShloMosaic.ValueIdx

/-- Input feature `κ` lies in quantization group `κ / 128`: groups are runs of 128 consecutive features, 64 of them. -/
def group (κ : Fin 8192) : Fin 64 := ⟨κ.val / 128, by have := κ.isLt; omega⟩

/-- The position of input feature `κ` inside its group, `κ mod 128`. -/
def lane (κ : Fin 8192) : Fin 128 := ⟨κ.val % 128, Nat.mod_lt _ (by decide)⟩

/-- A feature is its group times 128 plus its position in the group. -/
theorem group_lane (κ : Fin 8192) : (group κ).val * 128 + (lane κ).val = κ.val := by
  show κ.val / 128 * 128 + κ.val % 128 = κ.val
  omega

/-- The dequantized weight of output feature `n` at input feature `κ`: the signed code, exactly, times its group's scale. -/
def weight (codes : (⟨2, ![8192, 8192]⟩ : Shape).Idx → BitVec 32) (scales : (⟨2, ![8192, 64]⟩ : Shape).Idx → EReal)
    (n κ : Fin 8192) : EReal :=
  (((codes (ix2 n κ)).toInt : ℝ) : EReal) * scales (ix2 n (group κ))

/-- The layer: at row `j 0` and output feature `j 1`, the activations' row against the dequantized weights' row, summed
    over the input features, plus the feature's bias. -/
def linear (act : (⟨2, ![8, 8192]⟩ : Shape).Idx → EReal) (codes : (⟨2, ![8192, 8192]⟩ : Shape).Idx → BitVec 32)
    (scales : (⟨2, ![8192, 64]⟩ : Shape).Idx → EReal) (bias : (⟨1, ![8192]⟩ : Shape).Idx → EReal) :
    (⟨2, ![8, 8192]⟩ : Shape).Idx → EReal :=
  fun j => (∑ κ : Fin 8192, act (ix2 (j 0) κ) * weight codes scales (j 1) κ) + bias (ix1 (j 1))

/-- The layer read at explicit coordinates. -/
theorem linear_apply (act : (⟨2, ![8, 8192]⟩ : Shape).Idx → EReal) (codes : (⟨2, ![8192, 8192]⟩ : Shape).Idx → BitVec 32)
    (scales : (⟨2, ![8192, 64]⟩ : Shape).Idx → EReal) (bias : (⟨1, ![8192]⟩ : Shape).Idx → EReal) (r : Fin 8) (n : Fin 8192) :
    linear act codes scales bias (ix2 r n)
      = (∑ κ : Fin 8192, act (ix2 r κ) * ((((codes (ix2 n κ)).toInt : ℝ) : EReal) * scales (ix2 n (group κ)))) + bias (ix1 n) := rfl

end Cert.DequantGemm

end
-- ==== Proof.RefDequantGemm.lean ====
/-
  The reference's result is the layer `Cert.DequantGemm.linear` of the quantized activations and the three other
  arguments.

  The reference reshapes the codes to [8192, 64, 128], converts them, multiplies by the scales broadcast along the last
  axis, reshapes back to [8192, 8192] and contracts the activations' and the weights' feature axes. A row-major reshape
  sends feature `κ` of row `n` to group `κ / 128`, position `κ mod 128`, and back, so the weight it builds at `(n, κ)`
  is the code at `(n, κ)` times the scale at `(n, κ / 128)`: the index arithmetic below is all there is to it. The
  quantized activations (the reference's buffer 12, a function of the first argument alone) are left as they are.
-/
import proofs.«158572_j43353399885902_1_alg».proof.Proof.Gen.ReferenceIdeal.Read
import proofs.«158572_j43353399885902_1_alg».proof.Proof.DequantGemm

noncomputable section

open scoped BigOperators

namespace Cert.ReferenceIdeal.Layer

open Cert.ReferenceIdeal Cert.ReferenceIdeal.Read Idealize.ShloMosaic Idealize.ShloMosaic.ValueIdx Cert.DequantGemm

/-- The contraction reads the activations at the result's row and the contracted feature. -/
theorem act_index (i : S8x8192.Idx) (k : Fin 8192) : lidx_main_v19 i k = ix2 (i 0) k :=
  funext fun a => Fin.ext (by match a with | ⟨0, _⟩ => rfl | ⟨1, _⟩ => rfl)

/-- Through the reshape to groups and back, the weight at `(n, κ)` reads the code at `(n, κ)`. -/
theorem code_index (i : S8x8192.Idx) (k : Fin 8192) :
    idx_main_v13 (idx_main_v18 (ridx_main_v19 i k)) = ix2 (i 1) k :=
  funext fun a => Fin.ext (by
    have h1 : (i 1).val < 8192 := (i 1).isLt
    have hk : k.val < 8192 := k.isLt
    match a with
    | ⟨0, _⟩ =>
      show ((((i 1).val * 8192 + k.val) / 8192 * 64 + ((i 1).val * 8192 + k.val) / 128 % 64) * 128
        + ((i 1).val * 8192 + k.val) % 128) / 8192 = (i 1).val
      omega
    | ⟨1, _⟩ =>
      show ((((i 1).val * 8192 + k.val) / 8192 * 64 + ((i 1).val * 8192 + k.val) / 128 % 64) * 128
        + ((i 1).val * 8192 + k.val) % 128) % 8192 = k.val
      omega)

/-- … and the scale at `(n, κ / 128)`: the broadcast along the group's positions forgets `κ mod 128`. -/
theorem scale_index (i : S8x8192.Idx) (k : Fin 8192) :
    idx_main_v15 (idx_main_v16 (idx_main_v18 (ridx_main_v19 i k))) = ix2 (i 1) (group k) :=
  funext fun a => Fin.ext (by
    have h1 : (i 1).val < 8192 := (i 1).isLt
    have hk : k.val < 8192 := k.isLt
    match a with
    | ⟨0, _⟩ =>
      show ((i 1).val * 8192 + k.val) / 8192 = (i 1).val
      omega
    | ⟨1, _⟩ =>
      show ((i 1).val * 8192 + k.val) / 128 % 64 = k.val / 128
      omega)

/-- The bias is broadcast down the rows: the result's column alone picks it. -/
theorem bias_index (i : S8x8192.Idx) : idx_main_v20 (idx_main_v21 i) = ix1 (i 1) :=
  funext fun a => Fin.ext (by match a with | ⟨0, _⟩ => rfl)

/-- The weight array the reference builds, at `(n, κ)`: the dequantized weight. -/
theorem weight_apply (x1 : (⟨S8192x8192, .i32⟩ : BufTy).Contents (Elt Ideal)) (x2 : (⟨S8192x64, .f32⟩ : BufTy).Contents (Elt Ideal))
    (i : S8x8192.Idx) (k : Fin 8192) :
    val_main_v18 (F := Ideal) x1 x2 (ridx_main_v19 i k) = weight x1 x2 (i 1) k := by
  rw [val_main_v18_apply, val_main_v17_apply, val_main_v14_apply, val_main_v13_apply, val_main_v16_apply, val_main_v15_apply,
    code_index, scale_index]
  rfl

/-- THE REFERENCE'S RESULT: the layer of its quantized activations, the codes, the scales and the bias. -/
theorem result_eq (x0 : (⟨S8x8192, .f32⟩ : BufTy).Contents (Elt Ideal)) (x1 : (⟨S8192x8192, .i32⟩ : BufTy).Contents (Elt Ideal))
    (x2 : (⟨S8192x64, .f32⟩ : BufTy).Contents (Elt Ideal)) (x3 : (⟨S8192, .f32⟩ : BufTy).Contents (Elt Ideal)) :
    val_main_v22 (F := Ideal) x0 x1 x2 x3 = linear (val_main_v12 (F := Ideal) x0) x1 x2 x3 := by
  funext i
  rw [val_main_v22_apply, val_main_v19_apply, val_main_v21_apply, val_main_v20_apply, bias_index]
  show (∑ k : Fin 8192, _) + _ = (∑ κ : Fin 8192, _) + _
  refine congrArg (· + x3 (ix1 (i 1))) (Finset.sum_congr rfl fun k _ => ?_)
  rw [act_index, weight_apply]
  rfl

end Cert.ReferenceIdeal.Layer

end
-- ==== Proof.TileDequantGemm.lean ====
/-
  One grid point's tile, read at an index.

  At a grid point the body holds all 8 rows of the quantized activations (8 × 8192), a tile of 256 output features' codes
  (256 × 8192), their scales (256 × 64) and their biases (1 × 256). It converts the codes, spreads each scale over its
  group's 128 positions (a cast to [256, 64, 1], a broadcast to [256, 64, 128], a row-major cast to [256, 8192]: position
  `κ` of a row reads the scale of group `κ / 128`), multiplies the two, contracts the activations' and the products' feature
  axes into a zero accumulator, and adds the biases broadcast down the rows. Read at row `p` and tile column `q` over the
  extended reals, where a change of float format is the identity and a contraction into zero is the plain sum, that is
  the sum over the 8192 input features of activation times (code times scale), plus the bias of column `q`.
-/
import proofs.«158572_j43353399885902_1_alg».proof.Proof.Gen.KernelIdeal.Skeleton
import proofs.«158572_j43353399885902_1_alg».proof.Proof.DequantGemm
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.DequantGemm

/-! ## The contraction's operand indices: rows from the result, the feature from the contracted axis -/

theorem lhs_axis0 (i : S8x256.Idx) (q : dot_S8x8192_S256x8192_S8x256_1_1_0_0_n_n.contr.Idx) :
    (dot_S8x8192_S256x8192_S8x256_1_1_0_0_n_n.lhsIdx i q 0).val = (i 0).val := by
  unfold DotDims.lhsIdx
  rw [dif_neg (show ¬(0 : Fin S8x8192.rank) ∈ dot_S8x8192_S256x8192_S8x256_1_1_0_0_n_n.lhsBatch by decide), dif_pos (show (0 : Fin S8x8192.rank) ∈ dot_S8x8192_S256x8192_S8x256_1_1_0_0_n_n.lhsNonContracting by decide)]
  rfl
theorem lhs_axis1 (i : S8x256.Idx) (q : dot_S8x8192_S256x8192_S8x256_1_1_0_0_n_n.contr.Idx) :
    (dot_S8x8192_S256x8192_S8x256_1_1_0_0_n_n.lhsIdx i q 1).val = (q ⟨0, by decide⟩).val :=
  dot_S8x8192_S256x8192_S8x256_1_1_0_0_n_n.lhsIdx_val_of_single rfl i q
theorem rhs_axis0 (i : S8x256.Idx) (q : dot_S8x8192_S256x8192_S8x256_1_1_0_0_n_n.contr.Idx) :
    (dot_S8x8192_S256x8192_S8x256_1_1_0_0_n_n.rhsIdx i q 0).val = (i 1).val := by
  unfold DotDims.rhsIdx
  rw [dif_neg (show ¬(0 : Fin S256x8192.rank) ∈ dot_S8x8192_S256x8192_S8x256_1_1_0_0_n_n.rhsBatch by decide), dif_pos (show (0 : Fin S256x8192.rank) ∈ dot_S8x8192_S256x8192_S8x256_1_1_0_0_n_n.rhsNonContracting by decide)]
  rfl
theorem rhs_axis1 (i : S8x256.Idx) (q : dot_S8x8192_S256x8192_S8x256_1_1_0_0_n_n.contr.Idx) :
    (dot_S8x8192_S256x8192_S8x256_1_1_0_0_n_n.rhsIdx i q 1).val = (q ⟨0, by decide⟩).val :=
  dot_S8x8192_S256x8192_S8x256_1_1_0_0_n_n.rhsIdx_val_of_single rfl i q

/-! ## The scales spread over their groups -/

/-- The scale tile cast to [256, 64, 1], broadcast along each group's 128 positions and cast row-major to [256, 8192],
    read at tile row `q` and feature `κ`: the scale of row `q` and group `κ / 128`. -/
theorem spread_scales_apply (v5 : Vec Ideal S256x64 .f32) (q : Fin 256) (κ : Fin 8192) :
    (shapeCast S256x8192 (broadcastTo S256x64x128 (shapeCast S256x64x1 (shapeCast S256x64x1 (truncf .bf16 v5 bitsLt_bf16_f32 : FVec Ideal S256x64 .bf16)
        shapeCasts_S256x64_S256x64x1) shapeCasts_S256x64x1_S256x64x1) broadcasts_S256x64x1_S256x64x128) shapeCasts_S256x64x128_S256x8192
        : FVec Ideal S256x8192 .bf16) (ix2 q κ)
      = v5 (ix2 q (group κ)) := by
  refine (shapeCast_apply _ shapeCasts_S256x64x128_S256x8192 (ix2 q κ) (ix3 q (group κ) (lane κ)) ?_).trans ?_
  · rw [Shape.rowMajor_val_three, Shape.rowMajor_val_two]
    show (q.val * 64 + κ.val / 128) * 128 + κ.val % 128 = q.val * 8192 + κ.val
    omega
  refine (broadcastTo_apply _ broadcasts_S256x64x1_S256x64x128 (ix3 q (group κ) (lane κ)) (ix3 q (group κ) ⟨0, Nat.one_pos⟩) ?_).trans ?_
  · intro a
    match a with
    | ⟨0, _⟩ => show q.val = if (256 : Nat) = 1 then 0 else q.val; rw [if_neg (by decide)]
    | ⟨1, _⟩ => show κ.val / 128 = if (64 : Nat) = 1 then 0 else κ.val / 128; rw [if_neg (by decide)]
    | ⟨2, _⟩ => show 0 = if (1 : Nat) = 1 then 0 else κ.val % 128; rw [if_pos rfl]
  rw [shapeCast_self]
  refine (shapeCast_apply _ shapeCasts_S256x64_S256x64x1 (ix3 q (group κ) ⟨0, Nat.one_pos⟩) (ix2 q (group κ)) ?_).trans ?_
  · rw [Shape.rowMajor_val_two, Shape.rowMajor_val_three]
    show q.val * 64 + κ.val / 128 = (q.val * 64 + κ.val / 128) * 1 + 0
    omega
  rfl

/-- The bias row broadcast down the 8 rows, read at `(p, q)`: the bias of column `q`. -/
theorem spread_bias_apply (v13 : Vec Ideal S1x256 .f32) (p : Fin 8) (q : Fin 256) :
    (broadcastTo S8x256 (shapeCast S1x256 v13 shapeCasts_S1x256_S1x256) broadcasts_S1x256_S8x256 : FVec Ideal S8x256 .f32) (ix2 p q)
      = v13 (ix2 ⟨0, Nat.one_pos⟩ q) := by
  refine (broadcastTo_apply _ broadcasts_S1x256_S8x256 (ix2 p q) (ix2 ⟨0, Nat.one_pos⟩ q) ?_).trans ?_
  · intro a
    match a with
    | ⟨0, _⟩ => show 0 = if (1 : Nat) = 1 then 0 else p.val; rw [if_pos rfl]
    | ⟨1, _⟩ => show q.val = if (256 : Nat) = 1 then 0 else q.val; rw [if_neg (by decide)]
  rw [shapeCast_self]

/-! ## The body's stored value at an index -/

/-- THE TILE at row `p`, tile column `q`: the activations' row `p` against the dequantized weights' row `q` of this tile,
    summed over the input features, plus the tile's bias at `q`. -/
theorem tile_apply (v0 : Vec Ideal S8x8192 .f32) (v3 : Vec Ideal S256x8192 .i32) (v5 : Vec Ideal S256x64 .f32) (v13 : Vec Ideal S1x256 .f32)
    (p : Fin 8) (q : Fin 256) :
    k0_pay1 (F := Ideal) v0 v3 v5 v13 (ix2 p q)
      = (∑ κ : Fin 8192, v0 (ix2 p κ) * ((((v3 (ix2 q κ)).toInt : ℝ) : EReal) * v5 (ix2 q (group κ)))) + v13 (ix2 ⟨0, Nat.one_pos⟩ q) := by
  unfold k0_pay1
  show (_ : EReal) + _ = _ + _
  refine congrArg₂ (· + ·) ?_ (spread_bias_apply v13 p q)
  refine (Ideal.matmul_constant_zero_apply dot_S8x8192_S256x8192_S8x256_1_1_0_0_n_n none _ _ (ix2 p q)).trans ?_
  rw [← Equiv.sum_comp (contrEquiv1 dot_S8x8192_S256x8192_S8x256_1_1_0_0_n_n 8192 rfl rfl).symm]
  refine Finset.sum_congr rfl fun κ _ => ?_
  have hκ := contrEquiv1_symm_val dot_S8x8192_S256x8192_S8x256_1_1_0_0_n_n 8192 rfl rfl κ
  have el : dot_S8x8192_S256x8192_S8x256_1_1_0_0_n_n.lhsIdx (ix2 p q) ((contrEquiv1 dot_S8x8192_S256x8192_S8x256_1_1_0_0_n_n 8192 rfl rfl).symm κ) = ix2 p κ := funext fun a => Fin.ext (by
    match a with
    | ⟨0, _⟩ => exact lhs_axis0 _ _
    | ⟨1, _⟩ => exact (lhs_axis1 _ _).trans hκ)
  have er : dot_S8x8192_S256x8192_S8x256_1_1_0_0_n_n.rhsIdx (ix2 p q) ((contrEquiv1 dot_S8x8192_S256x8192_S8x256_1_1_0_0_n_n 8192 rfl rfl).symm κ) = ix2 q κ := funext fun a => Fin.ext (by
    match a with
    | ⟨0, _⟩ => exact rhs_axis0 _ _
    | ⟨1, _⟩ => exact (rhs_axis1 _ _).trans hκ)
  rw [el, er]
  refine congrArg₂ (· * ·) ?_ ?_
  · show (shapeCast S8x8192 v0 shapeCasts_S8x8192_S8x8192) (ix2 p κ) = v0 (ix2 p κ)
    rw [shapeCast_self]
  · show (((v3 (ix2 q κ)).toInt : ℝ) : EReal) * _ = _
    exact congrArg ((((v3 (ix2 q κ)).toInt : ℝ) : EReal) * ·) (spread_scales_apply v5 q κ)

end Cert.KernelIdeal.Tile

end
-- ==== Proof.KernelDequantGemm.lean ====
/-
  The kernel's output array after the run is the layer `Cert.DequantGemm.linear` of the arrays the region finds.

  The grid has 32 points. Point `t` holds all of the activations, the codes and scales of output features
  `256·t … 256·t + 255`, their biases, and writes the 8 × 256 block of the output at columns `256·t …`. So what point `t`
  writes is the restriction of `linear` to that block (a block's coordinate is its index times its size plus the coordinate
  inside it), the 32 blocks tile the 8 × 8192 output, and the output ends as `linear` whole. Two of the arrays the
  region finds were written by the host operations in front of it: the quantized activations (left as the composed term
  of the first argument) and the bias reshaped to one row (entry `(0, n)` of it is the bias of `n`).
-/
import proofs.«158572_j43353399885902_1_alg».proof.Proof.Gen.KernelIdeal.Value
import proofs.«158572_j43353399885902_1_alg».proof.Proof.Gen.ReferenceIdeal.Read
import proofs.«158572_j43353399885902_1_alg».proof.Proof.TileDequantGemm
import proofs.«158572_j43353399885902_1_alg».proof.Proof.DequantGemm
import Idealize.ShloMosaic.Lib.StableHlo.Run

set_option maxRecDepth 16384

noncomputable section

open scoped BigOperators

namespace Cert.KernelIdeal.Layer

open Cert.KernelIdeal Cert.KernelIdeal.Gen Cert.KernelIdeal.Value Cert.KernelIdeal.Tile
open Idealize.ShloMosaic Idealize.ShloMosaic.TcCoe Idealize.ShloMosaic.ValueIdx Idealize.SL.Sem Cert.DequantGemm
open Idealize.ShloMosaic.Pipeline (Dat)

variable (m : (ℓ : Loc nD τ sig) → Buf (Elt Ideal) ℓ) (ρ : Dev nD → PrngReg)

/-! ## The arrays the region finds, by their literal types -/

/-- The quantized activations, as the region finds them. -/
abbrev acts (c : Dev nD) : Vec Ideal S8x8192 .f32 := V m c main_v12
/-- The weight codes. -/
abbrev codes (c : Dev nD) : Vec Ideal S8192x8192 .i32 := V m c main_arg1
/-- The group scales. -/
abbrev scales (c : Dev nD) : Vec Ideal S8192x64 .f32 := V m c main_arg2
/-- The bias as one row. -/
abbrev biasRow (c : Dev nD) : Vec Ideal S1x8192 .f32 := V m c main_v13
/-- The bias row read as a rank-1 array: entry `n` is the row's entry `(0, n)`. -/
def biasOf (b : Vec Ideal S1x8192 .f32) : (⟨1, ![8192]⟩ : Shape).Idx → EReal := fun n => b (ix2 ⟨0, Nat.one_pos⟩ (n 0))

theorem origin : (![0, 0] : Fin 2 → Nat) = fun _ => 0 := funext fun a => by fin_cases a <;> rfl

/-! ## The index maps over the grid -/

/-- Decided over the 32 points: the activations' block never moves; the codes', the scales' blocks advance along the
    rows, the bias's and the output's along the columns, each by one block a point. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val ∧ t.val < 32 :=
  (by decide +kernel : ∀ t : Fin grid0.N, _)

/-! ## One point's tile is a block of the layer -/

/-- Over blocks given by what they hold: if the four blocks at point `t` are the activations whole, rows
    `256·t + q` of the codes and of the scales, and columns `256·t + q` of the bias row, then the tile at `(p, q)` is the
    layer at `(p, 256·t + q)`. -/
theorem tile_eq_linear (A : Vec Ideal S8x8192 .f32) (C : Vec Ideal S8192x8192 .i32) (S : Vec Ideal S8192x64 .f32) (B : Vec Ideal S1x8192 .f32)
    (t : Nat) (ht : t < 32)
    (x0 : Vec Ideal S8x8192 .f32) (x1 : Vec Ideal S256x8192 .i32) (x2 : Vec Ideal S256x64 .f32) (x3 : Vec Ideal S1x256 .f32)
    (h0 : ∀ (p : Fin 8) (κ : Fin 8192), x0 (ix2 p κ) = A (ix2 p κ))
    (h1 : ∀ (q : Fin 256) (κ : Fin 8192), x1 (ix2 q κ) = C (ix2 ⟨t * 256 + q.val, by have := q.isLt; omega⟩ κ))
    (h2 : ∀ (q : Fin 256) (g : Fin 64), x2 (ix2 q g) = S (ix2 ⟨t * 256 + q.val, by have := q.isLt; omega⟩ g))
    (h3 : ∀ (q : Fin 256), x3 (ix2 ⟨0, Nat.one_pos⟩ q) = B (ix2 ⟨0, Nat.one_pos⟩ ⟨t * 256 + q.val, by have := q.isLt; omega⟩))
    (p : Fin 8) (q : Fin 256) :
    k0_pay1 (F := Ideal) x0 x1 x2 x3 (ix2 p q) = linear A C S (biasOf B) (ix2 p ⟨t * 256 + q.val, by have := q.isLt; omega⟩) := by
  rw [tile_apply, linear_apply, h3]
  refine congrArg (· + _) (Finset.sum_congr rfl fun κ _ => ?_)
  rw [h0, h1, h2]

/-- WHAT POINT `t` WRITES BACK is block `t` of the layer of the arrays the region finds. -/
theorem flushed_eq (c : Dev nD) (t : Fin cfg0.N) :
    (dats m 0 c).flushed 4 t
      = ((cfg0.win 4).blk t).view.read (Elt Ideal) (linear (acts m c) (codes m c) (scales m c) (biasOf (biasRow m c))) := by
  rw [flushed4]
  unfold out0_4
  rw [View.canon_unit_zero origin]
  simp only [View.ld_unit_zero (S := S8x8192) origin, View.ld_unit_zero (S := S256x8192) origin,
    View.ld_unit_zero (S := S256x64) origin, View.ld_unit_zero (S := S1x256) origin]
  obtain ⟨e00, e01, e10, e11, e20, e21, e30, e31, e40, e41, ht⟩ := index_facts t
  funext y
  obtain ⟨p, q, rfl⟩ : ∃ (p : Fin 8) (q : Fin 256), y = ix2 p q := ⟨y 0, y 1, eq_ix2 y⟩
  show k0_pay1 (F := Ideal) (iblk m c 0 t) (iblk m c 1 t) (iblk m c 2 t) (iblk m c 3 t) (ix2 p q)
    = linear (acts m c) (codes m c) (scales m c) (biasOf (biasRow m c)) (((cfg0.win 4).blk t).view.emb (ix2 p q))
  refine (tile_eq_linear (acts m c) (codes m c) (scales m c) (biasRow m c) t.val ht
    (iblk m c 0 t) (iblk m c 1 t) (iblk m c 2 t) (iblk m c 3 t) ?_ ?_ ?_ ?_ p q).trans ?_
  · intro p κ
    show V m c main_v12 (((cfg0.win 0).blk t).view.emb (ix2 p κ)) = V m c main_v12 (ix2 p κ)
    refine congrArg (V m c main_v12) (funext fun a => Fin.ext ?_)
    match a with
    | ⟨0, _⟩ => show win0_0.index t (0 : Fin 2) * 8 + 1 * p.val = p.val; omega
    | ⟨1, _⟩ => show win0_0.index t (1 : Fin 2) * 8192 + 1 * κ.val = κ.val; omega
  · intro q κ
    show V m c main_arg1 (((cfg0.win 1).blk t).view.emb (ix2 q κ)) = V m c main_arg1 (ix2 ⟨t.val * 256 + q.val, _⟩ κ)
    refine congrArg (V m c main_arg1) (funext fun a => Fin.ext ?_)
    match a with
    | ⟨0, _⟩ => show win0_1.index t (0 : Fin 2) * 256 + 1 * q.val = t.val * 256 + q.val; omega
    | ⟨1, _⟩ => show win0_1.index t (1 : Fin 2) * 8192 + 1 * κ.val = κ.val; omega
  · intro q g
    show V m c main_arg2 (((cfg0.win 2).blk t).view.emb (ix2 q g)) = V m c main_arg2 (ix2 ⟨t.val * 256 + q.val, _⟩ g)
    refine congrArg (V m c main_arg2) (funext fun a => Fin.ext ?_)
    match a with
    | ⟨0, _⟩ => show win0_2.index t (0 : Fin 2) * 256 + 1 * q.val = t.val * 256 + q.val; omega
    | ⟨1, _⟩ => show win0_2.index t (1 : Fin 2) * 64 + 1 * g.val = g.val; omega
  · intro q
    show V m c main_v13 (((cfg0.win 3).blk t).view.emb (ix2 ⟨0, Nat.one_pos⟩ q)) = V m c main_v13 (ix2 ⟨0, Nat.one_pos⟩ ⟨t.val * 256 + q.val, _⟩)
    refine congrArg (V m c main_v13) (funext fun a => Fin.ext ?_)
    match a with
    | ⟨0, _⟩ => show win0_3.index t (0 : Fin 2) * 1 + 1 * 0 = 0; omega
    | ⟨1, _⟩ => show win0_3.index t (1 : Fin 2) * 256 + 1 * q.val = t.val * 256 + q.val; omega
  · refine congrArg (linear (acts m c) (codes m c) (scales m c) (biasOf (biasRow m c))) (funext fun a => Fin.ext ?_)
    match a with
    | ⟨0, _⟩ => show p.val = win0_4.index t (0 : Fin 2) * 8 + 1 * p.val; omega
    | ⟨1, _⟩ => show t.val * 256 + q.val = win0_4.index t (1 : Fin 2) * 256 + 1 * q.val; omega

/-! ## The 32 blocks tile the output -/

/-- An index of the output is in point `t`'s block iff each coordinate is in the block's range on its axis. -/
theorem mem_block (t : Fin cfg0.N) (i : S8x8192.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v14).slice (win0_4.rect t)).set ↔ _
  rw [View.set_slice_whole, Rect.mem_set_unit]
  exact Iff.rfl

/-- Column `n` of the output lies in the block of point `n / 256`, and every point writes its block back. -/
theorem cover (i : S8x8192.Idx) : ∃ t : Fin cfg0.N, (cfg0.win 4).flush t = true ∧ i ∈ ((cfg0.win 4).blk t).view.set := by
  have hi0 : (i 0).val < 8 := (i 0).isLt
  have hi1 : (i 1).val < 8192 := (i 1).isLt
  have hN : grid0.N = 32 := N_0
  have hlt : (i 1).val / 256 < grid0.N := by omega
  refine ⟨⟨(i 1).val / 256, hlt⟩, flush0_4 _, ?_⟩
  rw [mem_block]
  obtain ⟨-, -, -, -, -, -, -, -, e40, e41, -⟩ := index_facts ⟨(i 1).val / 256, hlt⟩
  have e41' : win0_4.index ⟨(i 1).val / 256, hlt⟩ (1 : Fin 2) = (i 1).val / 256 := e41
  intro a
  match a with
  | ⟨0, _⟩ =>
    show win0_4.index ⟨(i 1).val / 256, _⟩ (0 : Fin 2) * 8 ≤ (i 0).val ∧ (i 0).val < win0_4.index ⟨(i 1).val / 256, _⟩ (0 : Fin 2) * 8 + 8
    omega
  | ⟨1, _⟩ =>
    show win0_4.index ⟨(i 1).val / 256, _⟩ (1 : Fin 2) * 256 ≤ (i 1).val ∧ (i 1).val < win0_4.index ⟨(i 1).val / 256, _⟩ (1 : Fin 2) * 256 + 256
    omega

/-- THE OUTPUT ARRAY after the run: the layer of the arrays the region finds. -/
theorem final (c : Dev nD) :
    (dats m 0 c).arrAt 4 cfg0.N = linear (acts m c) (codes m c) (scales m c) (biasOf (biasRow m c)) :=
  (dats m 0 c).arrAt_eq_of_cover 4 _ (fun t _ => flushed_eq m c t) cover

/-! ## The two arrays the host operations wrote in front of the region -/

/-- The quantized activations are the reference's own composed term of the first argument: the two programs' host
    operations up to this buffer are the same operations on the same words. -/
theorem acts_eq (c : Dev nD) :
    acts m c = Cert.ReferenceIdeal.Read.val_main_v12 (F := Ideal) (m ((c : Thread nD τ).loc main_arg0)) := by
  show V m c main_v12 = _
  dsimp only [V]
  simp only [hostOps0, hostOps0_1, hostOps0_2, hostOps0_3, hostOps0_4, List.flatten_cons, List.flatten_nil, List.append_nil, List.cons_append, List.nil_append]
  after_results
  rfl

/-- The bias row is the bias reshaped: entry `(0, n)` is the bias of `n`. -/
theorem biasOf_biasRow (c : Dev nD) : biasOf (biasRow m c) = m ((c : Thread nD τ).loc main_arg3) := by
  have e : (V m c main_v13 : S1x8192.Idx → EReal)
      = shapeCast S1x8192 (m ((c : Thread nD τ).loc main_arg3)) shapeCasts_S8192_S1x8192 := by
    dsimp only [V]
    simp only [hostOps0, hostOps0_1, hostOps0_2, hostOps0_3, hostOps0_4, List.flatten_cons, List.flatten_nil, List.append_nil, List.cons_append, List.nil_append]
    after_results
    rfl
  funext n
  show V m c main_v13 (ix2 ⟨0, Nat.one_pos⟩ (n 0)) = _
  rw [e]
  refine (shapeCast_apply _ shapeCasts_S8192_S1x8192 (ix2 ⟨0, Nat.one_pos⟩ (n 0)) n ?_).trans rfl
  rw [Shape.rowMajor_val_two, Shape.rowMajor_val_one]
  show (n 0).val = 0 * 8192 + (n 0).val
  omega

/-! ## The run, read -/

/-- The kernel's run re-posted: the result array at the layer of the quantized activations (the composed term of the
    first argument) and the other three arguments as launched; the arguments unchanged. -/
theorem run : θ_run defs (onTc (τ := τ) (main (F := Ideal))) ⟨m, fun _ => 0, ρ⟩ fun r => ∀ c : Dev nD,
      r.2.mem ((c : Thread nD τ).loc main_v14)
        = linear (Cert.ReferenceIdeal.Read.val_main_v12 (F := Ideal) (m ((c : Thread nD τ).loc main_arg0)))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c, acts_eq m c, biasOf_biasRow m c]
      show linear _ (V m c main_arg1) (V m c main_arg2) _ = _
      rw [V_main_arg1 m c, V_main_arg2 m c], (h c).2⟩)
    (run_blocks m ρ)

end Cert.KernelIdeal.Layer

end
-- ==== Proof.lean ====
/-
  A linear layer whose weights are integer codes scaled group by group, computed tile by tile, equals the whole-array
  reference over the extended reals. (The codes are any 32-bit signed integers: no range of theirs is used.)

  Both programs first quantize the activations the same way (row maximum of absolute values over 127, floored at a tiny
  constant; divide, round to nearest even, clamp to ±127, multiply back): the same operations on the same words, so that
  step is one function of the first argument and is never opened. Then both compute, at row `r` and output feature `n`,
      Σ_κ  act[r, κ] · ( code[n, κ] · scale[n, κ / 128] )  +  bias[n]
  over the 8192 input features: the reference by reshaping codes and scales to groups of 128, multiplying, reshaping back
  and contracting the feature axes; the kernel on 32 tiles of 256 output features, each tile spreading its scales over
  the groups, multiplying by the converted codes, contracting into a zero accumulator and adding the bias row. Over the
  extended reals a change of float format is the identity, an integer converts to itself exactly whatever the target
  format, and a contraction into zero is the plain sum, so the two are the same sum of the same products in the same
  order: no algebraic law is needed, and the finiteness of the inputs is not used.

  `Cert.DequantGemm.linear` is that function. The reference's result is `linear` (Proof/RefDequantGemm.lean, through the
  reference's run read one operation at a time); a tile at an index is the sum above (Proof/TileDequantGemm.lean); the 32
  tiles are the blocks of `linear` and cover the output (Proof/KernelDequantGemm.lean). The kernel's frames are the
  generated ones, the reference's frame is its run with the result dropped, and the idealization rewrote nothing.
-/
import proofs.«158572_j43353399885902_1_alg».proof.Defs
import proofs.«158572_j43353399885902_1_alg».proof.Proof.Gen.Kernel
import proofs.«158572_j43353399885902_1_alg».proof.Proof.Gen.Kernel.Skeleton
import proofs.«158572_j43353399885902_1_alg».proof.Proof.Gen.Kernel.Launch
import proofs.«158572_j43353399885902_1_alg».proof.Proof.Gen.Kernel.Points
import proofs.«158572_j43353399885902_1_alg».proof.Proof.Gen.Kernel.Frame
import proofs.«158572_j43353399885902_1_alg».proof.Proof.Gen.KernelIdeal
import proofs.«158572_j43353399885902_1_alg».proof.Proof.Gen.KernelIdeal.Skeleton
import proofs.«158572_j43353399885902_1_alg».proof.Proof.Gen.KernelIdeal.Launch
import proofs.«158572_j43353399885902_1_alg».proof.Proof.Gen.KernelIdeal.Points
import proofs.«158572_j43353399885902_1_alg».proof.Proof.Gen.KernelIdeal.Frame
import proofs.«158572_j43353399885902_1_alg».proof.Proof.Gen.ReferenceIdeal
import proofs.«158572_j43353399885902_1_alg».proof.Proof.Gen.Pre_finite_inputs
import proofs.«158572_j43353399885902_1_alg».proof.Proof.Gen.KernelIdeal.Value
import proofs.«158572_j43353399885902_1_alg».proof.Proof.Gen.ReferenceIdeal.Run
import proofs.«158572_j43353399885902_1_alg».proof.Proof.Gen.ReferenceIdeal.Read
import proofs.«158572_j43353399885902_1_alg».proof.Proof.DequantGemm
import proofs.«158572_j43353399885902_1_alg».proof.Proof.RefDequantGemm
import proofs.«158572_j43353399885902_1_alg».proof.Proof.TileDequantGemm
import proofs.«158572_j43353399885902_1_alg».proof.Proof.KernelDequantGemm
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's output array ends at the layer of the quantized activations, the codes, the
    scales and the bias, and the reference's result is that same layer of its own arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Layer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
